-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048x2048 .f32) (main_v63 : IVec S_ 1) (main_v67 : IVec S_ 1) : IVec S_ 1 :=
  let main_v68 : IVec S_ 1 := andi main_v63 main_v67
  let main_v69 : FVec F S2048x2048 .f32 := Host.absf main_arg14
  let main_cst_26 : FVec F S_ .f32 := constant S_ .f32 0x7F800000#32
  let main_v70 : FVec F S2048x2048 .f32 := broadcastInDim S2048x2048 ![] bcast_S_S2048x2048 main_cst_26
  let main_v71 : IVec S2048x2048 1 := cmpf .olt main_v69 main_v70
  let main_c_27 : IVec S_ 1 := constantI S_ 1 1#1
  let main_v72 : IVec S_ 1 := (fun x v => Host.reduce IntOp.andi x v reducesTo_S2048x2048_S_d0_1 h_S_) main_v71 main_c_27
  let main_v73 : IVec S_ 1 := andi main_v68 main_v72
  main_v73

def fn_part3 {F : FTy → Type} [FloatOps F] (main_arg11 : FVec F S2048x2048 .f32) (main_arg12 : FVec F S2048x2048 .f32) (main_arg13 : FVec F S2048x2048 .f32) (main_arg14 : FVec F S2048x2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_v63 main_v67

def fn_part2 {F : FTy → Type} [FloatOps F] (main_arg7 : FVec F S2048 .f32) (main_arg8 : FVec F S2048 .f32) (main_arg9 : FVec F S2048 .f32) (main_arg10 : FVec F S2048 .f32) (main_arg11 : FVec F S2048x2048 .f32) (main_arg12 : FVec F S2048x2048 .f32) (main_arg13 : FVec F S2048x2048 .f32) (main_arg14 : FVec F S2048x2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_v48 main_v49 main_v50

def fn_part1 {F : FTy → Type} [FloatOps F] (main_arg4 : FVec F S2048x2048 .f32) (main_arg5 : FVec F S2048x2048 .f32) (main_arg6 : FVec F S2048x2048 .f32) (main_arg7 : FVec F S2048 .f32) (main_arg8 : FVec F S2048 .f32) (main_arg9 : FVec F S2048 .f32) (main_arg10 : FVec F S2048 .f32) (main_arg11 : FVec F S2048x2048 .f32) (main_arg12 : FVec F S2048x2048 .f32) (main_arg13 : FVec F S2048x2048 .f32) (main_arg14 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048x2048 .f32) (main_arg5 : FVec F S2048x2048 .f32) (main_arg6 : FVec F S2048x2048 .f32) (main_arg7 : FVec F S2048 .f32) (main_arg8 : FVec F S2048 .f32) (main_arg9 : FVec F S2048 .f32) (main_arg10 : FVec F S2048 .f32) (main_arg11 : FVec F S2048x2048 .f32) (main_arg12 : FVec F S2048x2048 .f32) (main_arg13 : FVec F S2048x2048 .f32) (main_arg14 : FVec F S2048x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512x256 : Shape := ⟨2, ![512, 256]⟩
abbrev S2048x256 : Shape := ⟨2, ![2048, 256]⟩
abbrev S1x256 : Shape := ⟨2, ![1, 256]⟩

abbrev nBuf : Space → Nat
  | .hbm => 21
  | .vmem => 34
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S4096x2048, .f32⟩
  | .hbm, ⟨20, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x2048.size a
  hwx0_2 : ∀ i : grid0.Coords, EltTy.bits .f32 = 32 ∨ (Rect.block (s := S4096x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x2048.size a
  hwx0_3 : ∀ i : grid0.Coords, EltTy.bits .f32 = 32 ∨ (Rect.block (s := S2048x2048) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x2048.size a
  hwx0_4 : ∀ i : grid0.Coords, EltTy.bits .f32 = 32 ∨ (Rect.block (s := S2048x2048) S2048x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x2048.size a
  hwx0_5 : ∀ i : grid0.Coords, EltTy.bits .f32 = 32 ∨ (Rect.block (s := S2048x2048) S2048x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x2048.size a
  hwx0_6 : ∀ i : grid0.Coords, EltTy.bits .f32 = 32 ∨ (Rect.block (s := S2048x2048) S2048x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .f32 = 32 ∨ (Rect.block (s := S2048x2048) S2048x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S2048x2048.size a
  hwx0_8 : ∀ i : grid0.Coords, EltTy.bits .f32 = 32 ∨ (Rect.block (s := S2048x2048) S2048x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S2048x2048.size a
  hwx0_9 : ∀ i : grid0.Coords, EltTy.bits .f32 = 32 ∨ (Rect.block (s := S2048x2048) S2048x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x256.size a ≤ S2048x2048.size a
  hwx0_10 : ∀ i : grid0.Coords, EltTy.bits .f32 = 32 ∨ (Rect.block (s := S2048x2048) S2048x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x256.size a ≤ S4096x2048.size a
  hwx0_15 : ∀ i : grid0.Coords, EltTy.bits .f32 = 32 ∨ (Rect.block (s := S4096x2048) S512x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S4096x2048.size a
  hwx0_16 : ∀ i : grid0.Coords, EltTy.bits .f32 = 32 ∨ (Rect.block (s := S4096x2048) S512x256.size (cc0_transform_16 i) (hinb0_16 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S2048x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S2048x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S2048x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v1) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v2) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v3) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v4_0) S512x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v4_1) S512x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S2048x8192 : Shape := ⟨2, ![2048, 8192]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x8192, .f32⟩
  | .hbm, ⟨16, _⟩ => ⟨S2048x8192, .f32⟩
  | .hbm, ⟨17, _⟩ => ⟨S8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S1x8192, .f32⟩
  | .hbm, ⟨22, _⟩ => ⟨S4096x8192, .f32⟩
  | .hbm, ⟨23, _⟩ => ⟨S4096x8192, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S2048x2048_S2048x2048_S2048x2048_S2048x2048_S2048x8192_d1 : Shape.Concatenates [S2048x2048, S2048x2048, S2048x2048, S2048x2048] S2048x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.CellSpec.lean ====
/-
  The long short-term memory cell, as one function of its fifteen argument arrays, index by index, on the extended reals.

  For a batch row `r` and a hidden unit `j`, each of the four gates has the pre-activation
      z(r, j) = (∑ₖ x(r, k) · Wx(k, j)  +  ∑ₖ h(r, k) · Wh(k, j))  +  b(j),
  with its own pair of weight matrices and its own bias. With σ the logistic function,
      c'(r, j) = σ(z_f) · c(r, j) + σ(z_i) · tanh(z_g),        h'(r, j) = σ(z_o) · tanh(c'(r, j)).
  The same function is stated a second time over the operands of ONE grid step (a 512-row slab of x and h, a 256-column
  slab of each weight matrix, a one-row slab of each bias): `tilePre`, and `tilePre_eq_gatePre` says a step's
  pre-activation is the array's wherever the slabs are restrictions of the arrays.
-/
import Idealize.ShloMosaic.PureOps.Ideal
import Idealize.ShloMosaic.Lib.ValueIdx

noncomputable section

namespace Cert.Cell

open Idealize.ShloMosaic Idealize.ShloMosaic.ValueIdx

/-- A [4096, 2048] array of extended reals: the inputs x, h, c and the two results. -/
abbrev Act : Type := (⟨2, ![4096, 2048]⟩ : Shape).Idx → EReal
/-- A [2048, 2048] weight matrix. -/
abbrev Wt : Type := (⟨2, ![2048, 2048]⟩ : Shape).Idx → EReal
/-- A [2048] bias vector. -/
abbrev Bias : Type := (⟨1, ![2048]⟩ : Shape).Idx → EReal

/-- One gate's pre-activation at batch row `r` and hidden unit `j`: the two matrix products added, then the bias. -/
def gatePre (x h : Act) (wx wh : Wt) (b : Bias) (r : Fin 4096) (j : Fin 2048) : EReal :=
  ((∑ k : Fin 2048, x (ix2 r k) * wx (ix2 k j)) + (∑ k : Fin 2048, h (ix2 r k) * wh (ix2 k j))) + b (ix1 j)

/-- The new cell state: forget gate times the old state, plus input gate times the candidate. -/
def cellNew (x h c : Act) (wxf wxi wxg whf whi whg : Wt) (bf bi bg : Bias) : Act := fun i =>
  Ideal.logistic (gatePre x h wxf whf bf (i 0) (i 1)) * c i
    + Ideal.logistic (gatePre x h wxi whi bi (i 0) (i 1)) * Ideal.tanh (gatePre x h wxg whg bg (i 0) (i 1))

/-- The new hidden state: output gate times tanh of the new cell state. -/
def hiddenNew (x h c : Act) (wxf wxi wxo wxg whf whi who whg : Wt) (bf bi bo bg : Bias) : Act := fun i =>
  Ideal.logistic (gatePre x h wxo who bo (i 0) (i 1)) * Ideal.tanh (cellNew x h c wxf wxi wxg whf whi whg bf bi bg i)

/-! ## The same pre-activation over one grid step's operands -/

/-- A 512-row slab of x or h. -/
abbrev ActTile : Type := (⟨2, ![512, 2048]⟩ : Shape).Idx → EReal
/-- A 256-column slab of a weight matrix. -/
abbrev WtTile : Type := (⟨2, ![2048, 256]⟩ : Shape).Idx → EReal
/-- A 256-entry slab of a bias, kept as one row. -/
abbrev BiasTile : Type := (⟨2, ![1, 256]⟩ : Shape).Idx → EReal
/-- A [512, 256] slab of c or of a result. -/
abbrev OutTile : Type := (⟨2, ![512, 256]⟩ : Shape).Idx → EReal

/-- One gate's pre-activation inside a grid step, at row `p` and column `q` of the step's output slab. -/
def tilePre (xt ht : ActTile) (wxt wht : WtTile) (bt : BiasTile) (p : Fin 512) (q : Fin 256) : EReal :=
  ((∑ k : Fin 2048, xt (ix2 p k) * wxt (ix2 k q)) + (∑ k : Fin 2048, ht (ix2 p k) * wht (ix2 k q))) + bt (ix2 (0 : Fin 1) q)

/-- Where a step's slabs are restrictions of the arrays (row `p` of the slab is row `r` of the array, column `q` is
    column `j`), the step's pre-activation is the array's. The two sums agree term by term. -/
theorem tilePre_eq_gatePre (x h : Act) (wx wh : Wt) (b : Bias) (xt ht : ActTile) (wxt wht : WtTile) (bt : BiasTile)
    (r : Fin 4096) (j : Fin 2048) (p : Fin 512) (q : Fin 256)
    (hx : ∀ k : Fin 2048, xt (ix2 p k) = x (ix2 r k)) (hh : ∀ k : Fin 2048, ht (ix2 p k) = h (ix2 r k))
    (hwx : ∀ k : Fin 2048, wxt (ix2 k q) = wx (ix2 k j)) (hwh : ∀ k : Fin 2048, wht (ix2 k q) = wh (ix2 k j))
    (hb : bt (ix2 (0 : Fin 1) q) = b (ix1 j)) :
    tilePre xt ht wxt wht bt p q = gatePre x h wx wh b r j := by
  have e1 : (∑ k : Fin 2048, xt (ix2 p k) * wxt (ix2 k q)) = ∑ k : Fin 2048, x (ix2 r k) * wx (ix2 k j) :=
    Finset.sum_congr rfl fun k _ => by rw [hx k, hwx k]
  have e2 : (∑ k : Fin 2048, ht (ix2 p k) * wht (ix2 k q)) = ∑ k : Fin 2048, h (ix2 r k) * wh (ix2 k j) :=
    Finset.sum_congr rfl fun k _ => by rw [hh k, hwh k]
  unfold tilePre gatePre
  rw [hb, e1, e2]

/-- The new cell state inside a grid step, from the step's slabs. -/
def tileCell (xt ht : ActTile) (ct : OutTile) (wxf wxi wxg whf whi whg : WtTile) (bf bi bg : BiasTile) : OutTile := fun y =>
  Ideal.logistic (tilePre xt ht wxf whf bf (y 0) (y 1)) * ct y
    + Ideal.logistic (tilePre xt ht wxi whi bi (y 0) (y 1)) * Ideal.tanh (tilePre xt ht wxg whg bg (y 0) (y 1))

/-- The new hidden state inside a grid step, from the step's slabs. -/
def tileHidden (xt ht : ActTile) (ct : OutTile) (wxf wxi wxo wxg whf whi who whg : WtTile) (bf bi bo bg : BiasTile) : OutTile := fun y =>
  Ideal.logistic (tilePre xt ht wxo who bo (y 0) (y 1)) * Ideal.tanh (tileCell xt ht ct wxf wxi wxg whf whi whg bf bi bg y)

/-- A step's cell state at `y` is the array's at `i`, where the slabs are restrictions of the arrays along `y ↦ i`:
    rows of x and h by the row of `i`, columns of the weights and entries of the biases by the column of `i`, and c at
    `i` itself. -/
theorem tileCell_eq_cellNew (x h c : Act) (wxf wxi wxg whf whi whg : Wt) (bf bi bg : Bias)
    (xt ht : ActTile) (ct : OutTile) (wxft wxit wxgt whft whit whgt : WtTile) (bft bit bgt : BiasTile)
    (i : (⟨2, ![4096, 2048]⟩ : Shape).Idx) (y : (⟨2, ![512, 256]⟩ : Shape).Idx)
    (hx : ∀ k : Fin 2048, xt (ix2 (y 0) k) = x (ix2 (i 0) k)) (hh : ∀ k : Fin 2048, ht (ix2 (y 0) k) = h (ix2 (i 0) k))
    (hc : ct y = c i)
    (hwxf : ∀ k : Fin 2048, wxft (ix2 k (y 1)) = wxf (ix2 k (i 1))) (hwxi : ∀ k : Fin 2048, wxit (ix2 k (y 1)) = wxi (ix2 k (i 1)))
    (hwxg : ∀ k : Fin 2048, wxgt (ix2 k (y 1)) = wxg (ix2 k (i 1)))
    (hwhf : ∀ k : Fin 2048, whft (ix2 k (y 1)) = whf (ix2 k (i 1))) (hwhi : ∀ k : Fin 2048, whit (ix2 k (y 1)) = whi (ix2 k (i 1)))
    (hwhg : ∀ k : Fin 2048, whgt (ix2 k (y 1)) = whg (ix2 k (i 1)))
    (hbf : bft (ix2 (0 : Fin 1) (y 1)) = bf (ix1 (i 1))) (hbi : bit (ix2 (0 : Fin 1) (y 1)) = bi (ix1 (i 1)))
    (hbg : bgt (ix2 (0 : Fin 1) (y 1)) = bg (ix1 (i 1))) :
    tileCell xt ht ct wxft wxit wxgt whft whit whgt bft bit bgt y = cellNew x h c wxf wxi wxg whf whi whg bf bi bg i := by
  unfold tileCell cellNew
  rw [tilePre_eq_gatePre x h wxf whf bf xt ht wxft whft bft (i 0) (i 1) (y 0) (y 1) hx hh hwxf hwhf hbf,
    tilePre_eq_gatePre x h wxi whi bi xt ht wxit whit bit (i 0) (i 1) (y 0) (y 1) hx hh hwxi hwhi hbi,
    tilePre_eq_gatePre x h wxg whg bg xt ht wxgt whgt bgt (i 0) (i 1) (y 0) (y 1) hx hh hwxg hwhg hbg, hc]

/-- Likewise the hidden state. -/
theorem tileHidden_eq_hiddenNew (x h c : Act) (wxf wxi wxo wxg whf whi who whg : Wt) (bf bi bo bg : Bias)
    (xt ht : ActTile) (ct : OutTile) (wxft wxit wxot wxgt whft whit whot whgt : WtTile) (bft bit bot bgt : BiasTile)
    (i : (⟨2, ![4096, 2048]⟩ : Shape).Idx) (y : (⟨2, ![512, 256]⟩ : Shape).Idx)
    (hx : ∀ k : Fin 2048, xt (ix2 (y 0) k) = x (ix2 (i 0) k)) (hh : ∀ k : Fin 2048, ht (ix2 (y 0) k) = h (ix2 (i 0) k))
    (hc : ct y = c i)
    (hwxf : ∀ k : Fin 2048, wxft (ix2 k (y 1)) = wxf (ix2 k (i 1))) (hwxi : ∀ k : Fin 2048, wxit (ix2 k (y 1)) = wxi (ix2 k (i 1)))
    (hwxo : ∀ k : Fin 2048, wxot (ix2 k (y 1)) = wxo (ix2 k (i 1))) (hwxg : ∀ k : Fin 2048, wxgt (ix2 k (y 1)) = wxg (ix2 k (i 1)))
    (hwhf : ∀ k : Fin 2048, whft (ix2 k (y 1)) = whf (ix2 k (i 1))) (hwhi : ∀ k : Fin 2048, whit (ix2 k (y 1)) = whi (ix2 k (i 1)))
    (hwho : ∀ k : Fin 2048, whot (ix2 k (y 1)) = who (ix2 k (i 1))) (hwhg : ∀ k : Fin 2048, whgt (ix2 k (y 1)) = whg (ix2 k (i 1)))
    (hbf : bft (ix2 (0 : Fin 1) (y 1)) = bf (ix1 (i 1))) (hbi : bit (ix2 (0 : Fin 1) (y 1)) = bi (ix1 (i 1)))
    (hbo : bot (ix2 (0 : Fin 1) (y 1)) = bo (ix1 (i 1))) (hbg : bgt (ix2 (0 : Fin 1) (y 1)) = bg (ix1 (i 1))) :
    tileHidden xt ht ct wxft wxit wxot wxgt whft whit whot whgt bft bit bot bgt y
      = hiddenNew x h c wxf wxi wxo wxg whf whi who whg bf bi bo bg i := by
  unfold tileHidden hiddenNew
  rw [tilePre_eq_gatePre x h wxo who bo xt ht wxot whot bot (i 0) (i 1) (y 0) (y 1) hx hh hwxo hwho hbo,
    tileCell_eq_cellNew x h c wxf wxi wxg whf whi whg bf bi bg xt ht ct wxft wxit wxgt whft whit whgt bft bit bgt i y
      hx hh hc hwxf hwxi hwxg hwhf hwhi hwhg hbf hbi hbg]

/-- The f32 word of 1.0 denotes the real 1. -/
theorem ofBits_one : Ideal.ofBits .f32 0x3F800000#32 = 1 := by
  simp [Ideal.ofBits, Ideal.ieee, -EReal.coe_mul]; norm_num

end Cert.Cell

end
-- ==== Proof.RefCell.lean ====
/-
  The reference computes the cell of `CellSpec.lean`. It joins the four input weight matrices side by side into one
  [2048, 8192] matrix (likewise the four hidden weight matrices, and the four biases end to end), takes ONE matrix product
  per operand, adds the bias row, and cuts the [4096, 8192] result back into four [4096, 2048] gates. Column
  2048·g + j of the joined matrix is column j of matrix g, so entry (r, 2048·g + j) of the joined pre-activation is gate g's
  pre-activation at (r, j) (`joined_pre`): the contraction runs over the rows of the weight matrices, which the joining
  does not touch. The reference spells the logistic function as 1 / (1 + exp (-z)), which is its definition on the
  extended reals, the word 0x3F800000 denoting 1.
-/
import proofs.«117564_j979252543670_1_alg».proof.Proof.Gen.ReferenceIdeal.Read
import proofs.«117564_j979252543670_1_alg».proof.Proof.CellSpec
import Idealize.ShloMosaic.Lib.Pipeline.Value
import Idealize.ShloMosaic.Lib.ValueIdx
import Idealize.ShloMosaic.PureOps.Ideal.Laws

noncomputable section

namespace Cert.RefCell

open Cert.ReferenceIdeal Cert.ReferenceIdeal.Gen Cert.ReferenceIdeal.Read Idealize.ShloMosaic Idealize.ShloMosaic.ValueIdx Cert.Cell

/-- Four [2048, 2048] matrices joined along the columns: entry (k, 2048·g + j) is matrix g's entry (k, j). -/
theorem joined_cols (w : Fin 4 → Wt) (g : Fin 4) (k j : Fin 2048) (y : S2048x8192.Idx)
    (hy0 : (y 0).val = k.val) (hy1 : (y 1).val = 2048 * g.val + j.val) :
    concatenate S2048x8192 1 [⟨S2048x2048, w 0⟩, ⟨S2048x2048, w 1⟩, ⟨S2048x2048, w 2⟩, ⟨S2048x2048, w 3⟩]
      concatenates_S2048x2048_S2048x2048_S2048x2048_S2048x2048_S2048x8192_d1 y = w g (ix2 k j) := by
  have hi : ∀ b : Fin S2048x2048.rank, b.cast (rfl : S2048x2048.rank = S2048x8192.rank) ≠ (1 : Fin S2048x8192.rank) →
      ((ix2 k j : S2048x2048.Idx) b).val = (y (b.cast rfl)).val := fun b hb => by
    match b, hb with
    | ⟨0, _⟩, _ => exact hy0.symm
    | ⟨1, _⟩, hb => exact absurd rfl hb
  match g, hy1 with
  | ⟨0, _⟩, hy1 =>
    have h1 : (y 1).val = 2048 * 0 + j.val := hy1
    exact concatenate_apply_piece 1 _ _ y 0 (by show 0 < 4; omega) S2048x2048 (w 0) rfl rfl 0 rfl (ix2 k j) hi (by show 0 + j.val = (y 1).val; omega)
  | ⟨1, _⟩, hy1 =>
    have h1 : (y 1).val = 2048 * 1 + j.val := hy1
    exact concatenate_apply_piece 1 _ _ y 1 (by show 1 < 4; omega) S2048x2048 (w 1) rfl rfl 2048 rfl (ix2 k j) hi (by show 2048 + j.val = (y 1).val; omega)
  | ⟨2, _⟩, hy1 =>
    have h1 : (y 1).val = 2048 * 2 + j.val := hy1
    exact concatenate_apply_piece 1 _ _ y 2 (by show 2 < 4; omega) S2048x2048 (w 2) rfl rfl 4096 rfl (ix2 k j) hi (by show 4096 + j.val = (y 1).val; omega)
  | ⟨3, _⟩, hy1 =>
    have h1 : (y 1).val = 2048 * 3 + j.val := hy1
    exact concatenate_apply_piece 1 _ _ y 3 (by show 3 < 4; omega) S2048x2048 (w 3) rfl rfl 6144 rfl (ix2 k j) hi (by show 6144 + j.val = (y 1).val; omega)

/-- Four [2048] biases joined end to end: entry 2048·g + j is bias g's entry j. -/
theorem joined_bias (b : Fin 4 → Bias) (g : Fin 4) (j : Fin 2048) (y : S8192.Idx) (hy : (y 0).val = 2048 * g.val + j.val) :
    concatenate S8192 0 [⟨S2048, b 0⟩, ⟨S2048, b 1⟩, ⟨S2048, b 2⟩, ⟨S2048, b 3⟩]
      concatenates_S2048_S2048_S2048_S2048_S8192_d0 y = b g (ix1 j) := by
  have hi : ∀ a : Fin S2048.rank, a.cast (rfl : S2048.rank = S8192.rank) ≠ (0 : Fin S8192.rank) →
      ((ix1 j : S2048.Idx) a).val = (y (a.cast rfl)).val := fun a ha => by
    match a, ha with
    | ⟨0, _⟩, ha => exact absurd rfl ha
  match g, hy with
  | ⟨0, _⟩, hy =>
    have h1 : (y 0).val = 2048 * 0 + j.val := hy
    exact concatenate_apply_piece 0 _ _ y 0 (by show 0 < 4; omega) S2048 (b 0) rfl rfl 0 rfl (ix1 j) hi (by show 0 + j.val = (y 0).val; omega)
  | ⟨1, _⟩, hy =>
    have h1 : (y 0).val = 2048 * 1 + j.val := hy
    exact concatenate_apply_piece 0 _ _ y 1 (by show 1 < 4; omega) S2048 (b 1) rfl rfl 2048 rfl (ix1 j) hi (by show 2048 + j.val = (y 0).val; omega)
  | ⟨2, _⟩, hy =>
    have h1 : (y 0).val = 2048 * 2 + j.val := hy
    exact concatenate_apply_piece 0 _ _ y 2 (by show 2 < 4; omega) S2048 (b 2) rfl rfl 4096 rfl (ix1 j) hi (by show 4096 + j.val = (y 0).val; omega)
  | ⟨3, _⟩, hy =>
    have h1 : (y 0).val = 2048 * 3 + j.val := hy
    exact concatenate_apply_piece 0 _ _ y 3 (by show 3 < 4; omega) S2048 (b 3) rfl rfl 6144 rfl (ix1 j) hi (by show 6144 + j.val = (y 0).val; omega)

/-- The joined pre-activation at (r, 2048·g + j) is gate g's pre-activation at (r, j). -/
theorem joined_pre (x h : Act) (wx wh : Fin 4 → Wt) (b : Fin 4 → Bias) (g : Fin 4) (r : Fin 4096) (j : Fin 2048)
    (y : S4096x8192.Idx) (hy0 : (y 0).val = r.val) (hy1 : (y 1).val = 2048 * g.val + j.val) :
    val_main_v8 (F := Ideal) x h (wx 0) (wx 1) (wx 2) (wx 3) (b 0) (b 1) (b 2) (b 3) (wh 0) (wh 1) (wh 2) (wh 3) y
      = gatePre x h (wx g) (wh g) (b g) r j := by
  rw [val_main_v8_apply, val_main_v5_apply, val_main_v3_apply, val_main_v4_apply, val_main_v7_apply, val_main_v6_apply]
  unfold gatePre val_main_v0 val_main_v1 val_main_v2
  simp only [Ideal.addf_def]
  have el3 : ∀ k : Fin 2048, lidx_main_v3 y k = ix2 r k := fun k => funext fun a => Fin.ext (by
    match a with
    | ⟨0, _⟩ => exact hy0
    | ⟨1, _⟩ => rfl)
  have el4 : ∀ k : Fin 2048, lidx_main_v4 y k = ix2 r k := fun k => funext fun a => Fin.ext (by
    match a with
    | ⟨0, _⟩ => exact hy0
    | ⟨1, _⟩ => rfl)
  have s3 : (∑ k : Fin 2048, x (lidx_main_v3 y k) * concatenate S2048x8192 1 [⟨S2048x2048, wx 0⟩, ⟨S2048x2048, wx 1⟩, ⟨S2048x2048, wx 2⟩, ⟨S2048x2048, wx 3⟩]
        concatenates_S2048x2048_S2048x2048_S2048x2048_S2048x2048_S2048x8192_d1 (ridx_main_v3 y k))
      = ∑ k : Fin 2048, x (ix2 r k) * wx g (ix2 k j) :=
    Finset.sum_congr rfl fun k _ => by rw [el3 k, joined_cols wx g k j (ridx_main_v3 y k) rfl hy1]
  have s4 : (∑ k : Fin 2048, h (lidx_main_v4 y k) * concatenate S2048x8192 1 [⟨S2048x2048, wh 0⟩, ⟨S2048x2048, wh 1⟩, ⟨S2048x2048, wh 2⟩, ⟨S2048x2048, wh 3⟩]
        concatenates_S2048x2048_S2048x2048_S2048x2048_S2048x2048_S2048x8192_d1 (ridx_main_v4 y k))
      = ∑ k : Fin 2048, h (ix2 r k) * wh g (ix2 k j) :=
    Finset.sum_congr rfl fun k _ => by rw [el4 k, joined_cols wh g k j (ridx_main_v4 y k) rfl hy1]
  rw [s3, s4, joined_bias b g j (idx_main_v6 (idx_main_v7 y)) hy1]

/-- The reference's logistic, 1 / (1 + exp (-z)) with both ones the word 0x3F800000, is the logistic function. -/
theorem host_logistic (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  rw [Ideal.ofBits_def, ofBits_one]
  rfl

/-- The reference's second result is the new cell state. -/
theorem cell_eq (x0 x1 x2 : Act) (x3 x4 x5 x6 : Wt) (x7 x8 x9 x10 : Bias) (x11 x12 x13 x14 : Wt) :
    val_main_v34 (F := Ideal) x0 x1 x2 x3 x4 x5 x6 x7 x8 x9 x10 x11 x12 x13 x14
      = cellNew x0 x1 x2 x3 x4 x6 x11 x12 x14 x7 x8 x10 := by
  funext i
  have hf : val_main_v8 (F := Ideal) x0 x1 x3 x4 x5 x6 x7 x8 x9 x10 x11 x12 x13 x14 (idx_main_v9 i) = gatePre x0 x1 x3 x11 x7 (i 0) (i 1) :=
    joined_pre x0 x1 ![x3, x4, x5, x6] ![x11, x12, x13, x14] ![x7, x8, x9, x10] 0 (i 0) (i 1) (idx_main_v9 i) rfl
      (by show (i 1).val = 2048 * 0 + (i 1).val; omega)
  have hi : val_main_v8 (F := Ideal) x0 x1 x3 x4 x5 x6 x7 x8 x9 x10 x11 x12 x13 x14 (idx_main_v10 i) = gatePre x0 x1 x4 x12 x8 (i 0) (i 1) :=
    joined_pre x0 x1 ![x3, x4, x5, x6] ![x11, x12, x13, x14] ![x7, x8, x9, x10] 1 (i 0) (i 1) (idx_main_v10 i) rfl
      (by show 2048 + (i 1).val = 2048 * 1 + (i 1).val; omega)
  have hg : val_main_v8 (F := Ideal) x0 x1 x3 x4 x5 x6 x7 x8 x9 x10 x11 x12 x13 x14 (idx_main_v12 i) = gatePre x0 x1 x6 x14 x10 (i 0) (i 1) :=
    joined_pre x0 x1 ![x3, x4, x5, x6] ![x11, x12, x13, x14] ![x7, x8, x9, x10] 3 (i 0) (i 1) (idx_main_v12 i) rfl
      (by show 6144 + (i 1).val = 2048 * 3 + (i 1).val; omega)
  rw [val_main_v34_apply, val_main_v32_apply, val_main_v33_apply, val_main_v18_apply, val_main_v17_apply, val_main_cst_0_apply,
    val_main_v16_apply, val_main_v15_apply, val_main_cst_apply, val_main_v14_apply, val_main_v13_apply, val_main_v9_apply,
    val_main_v24_apply, val_main_v23_apply, val_main_cst_2_apply, val_main_v22_apply, val_main_v21_apply, val_main_cst_1_apply,
    val_main_v20_apply, val_main_v19_apply, val_main_v10_apply, val_main_v31_apply, val_main_v12_apply, hf, hi, hg,
    host_logistic, host_logistic]
  rfl

/-- The reference's first result is the new hidden state. -/
theorem hidden_eq (x0 x1 x2 : Act) (x3 x4 x5 x6 : Wt) (x7 x8 x9 x10 : Bias) (x11 x12 x13 x14 : Wt) :
    val_main_v36 (F := Ideal) x0 x1 x2 x3 x4 x5 x6 x7 x8 x9 x10 x11 x12 x13 x14
      = hiddenNew x0 x1 x2 x3 x4 x5 x6 x11 x12 x13 x14 x7 x8 x9 x10 := by
  funext i
  have ho : val_main_v8 (F := Ideal) x0 x1 x3 x4 x5 x6 x7 x8 x9 x10 x11 x12 x13 x14 (idx_main_v11 i) = gatePre x0 x1 x5 x13 x9 (i 0) (i 1) :=
    joined_pre x0 x1 ![x3, x4, x5, x6] ![x11, x12, x13, x14] ![x7, x8, x9, x10] 2 (i 0) (i 1) (idx_main_v11 i) rfl
      (by show 4096 + (i 1).val = 2048 * 2 + (i 1).val; omega)
  rw [val_main_v36_apply, val_main_v35_apply, cell_eq, val_main_v30_apply, val_main_v29_apply, val_main_cst_4_apply,
    val_main_v28_apply, val_main_v27_apply, val_main_cst_3_apply, val_main_v26_apply, val_main_v25_apply, val_main_v11_apply,
    ho, host_logistic]
  rfl

end Cert.RefCell

end
-- ==== Proof.TileCell.lean ====
/-
  One grid step of the kernel computes the cell of `CellSpec.lean` on its slabs. Each gate's pre-activation in the body is
  the same tree of operations (`gateVec`): two products into a zero accumulator, added, plus the bias row spread over
  the 512 rows. A product into the zero accumulator, read at (p, q), is the plain sum over the contraction index of the
  operands' products (the narrowing of the operands to bf16 is the identity on the extended reals), and the spread bias
  row reads its one row at column q: so `gateVec` at (p, q) is `tilePre` (`gateVec_at`). The two stored values are then
  the step's new cell state and new hidden state, index by index (`cell_payload`, `hidden_payload`).
-/
import proofs.«117564_j979252543670_1_alg».proof.Proof.Gen.KernelIdeal.Skeleton
import proofs.«117564_j979252543670_1_alg».proof.Proof.CellSpec
import Idealize.ShloMosaic.Lib.ValueIdx
import Idealize.ShloMosaic.Lib.ValueLayout
import Idealize.ShloMosaic.Lib.Pipeline.Value
import Idealize.ShloMosaic.PureOps.Ideal.Laws

noncomputable section

namespace Cert.TileCell

open Cert.KernelIdeal Cert.KernelIdeal.Gen Idealize.ShloMosaic Idealize.ShloMosaic.TcCoe Idealize.ShloMosaic.ValueIdx Cert.Cell

/-! ## The body's matrix product read at an index -/

theorem lhs_axis0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem lhs_axis1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
theorem rhs_axis0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
theorem rhs_axis1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- The product of a [512, 2048] slab with a [2048, 256] slab into the zero accumulator, at (p, q): the sum over k of
    the left operand's (p, k) times the right operand's (k, q). -/
theorem product_at (a : FVec Ideal S512x2048 .bf16) (b : FVec Ideal S2048x256 .bf16) (p : Fin 512) (q : Fin 256) :
    matmul dot_S512x2048_S2048x256_S512x256_1_0_0_1_n_n none a b (constant (F := Ideal) S512x256 .f32 0x00000000#32) (ix2 p q)
      = ∑ k : Fin 2048, a (ix2 p k) * b (ix2 k q) := by
  simp only [matmul]
  rw [Ideal.matmul_constant_zero_apply, ← Equiv.sum_comp (ValueIdx.contrEquiv1 dot_S512x2048_S2048x256_S512x256_1_0_0_1_n_n 2048 rfl rfl).symm]
  refine Finset.sum_congr rfl fun k _ => ?_
  have hk := ValueIdx.contrEquiv1_symm_val dot_S512x2048_S2048x256_S512x256_1_0_0_1_n_n 2048 rfl rfl k
  have el : dot_S512x2048_S2048x256_S512x256_1_0_0_1_n_n.lhsIdx (ix2 p q) ((ValueIdx.contrEquiv1 dot_S512x2048_S2048x256_S512x256_1_0_0_1_n_n 2048 rfl rfl).symm k) = ix2 p k := funext fun a => Fin.ext (by
    match a with
    | ⟨0, _⟩ => exact lhs_axis0 _ _
    | ⟨1, _⟩ => exact (lhs_axis1 _ _).trans hk)
  have er : dot_S512x2048_S2048x256_S512x256_1_0_0_1_n_n.rhsIdx (ix2 p q) ((ValueIdx.contrEquiv1 dot_S512x2048_S2048x256_S512x256_1_0_0_1_n_n 2048 rfl rfl).symm k) = ix2 k q := funext fun a => Fin.ext (by
    match a with
    | ⟨0, _⟩ => exact (rhs_axis0 _ _).trans hk
    | ⟨1, _⟩ => exact rhs_axis1 _ _)
  rw [el, er]

/-! ## One gate's pre-activation as the body computes it -/

/-- The body's tree of operations for one gate: x·Wx into zero, h·Wh into zero, added, plus the bias row spread over
    the rows. -/
def gateVec (xt ht : FVec Ideal S512x2048 .f32) (wxt wht : FVec Ideal S2048x256 .f32) (bt : FVec Ideal S1x256 .f32) :
    FVec Ideal S512x256 .f32 :=
  addf (addf (matmul dot_S512x2048_S2048x256_S512x256_1_0_0_1_n_n none (truncf .bf16 xt bitsLt_bf16_f32) (truncf .bf16 wxt bitsLt_bf16_f32) (constant S512x256 .f32 0x00000000#32))
      (matmul dot_S512x2048_S2048x256_S512x256_1_0_0_1_n_n none (truncf .bf16 ht bitsLt_bf16_f32) (truncf .bf16 wht bitsLt_bf16_f32) (constant S512x256 .f32 0x00000000#32)))
    (broadcastTo S512x256 (shapeCast S1x256 bt shapeCasts_S1x256_S1x256) broadcasts_S1x256_S512x256)

/-- At (p, q) it is the step's pre-activation. -/
theorem gateVec_at (xt ht : FVec Ideal S512x2048 .f32) (wxt wht : FVec Ideal S2048x256 .f32) (bt : FVec Ideal S1x256 .f32)
    (p : Fin 512) (q : Fin 256) : gateVec xt ht wxt wht bt (ix2 p q) = tilePre xt ht wxt wht bt p q := by
  unfold gateVec tilePre
  rw [addf_apply, addf_apply, product_at, product_at, broadcastTo_1b_ab_apply, shapeCast_self]
  rfl

/-! ## The two stored values -/

theorem pay5_eq (x0 x1 : FVec Ideal S512x2048 .f32) (w wh : FVec Ideal S2048x256 .f32) (b : FVec Ideal S1x256 .f32) :
    k0_pay5 x0 x1 w wh b = gateVec x0 x1 w wh b := rfl
theorem pay6_eq (x0 x1 : FVec Ideal S512x2048 .f32) (w wh : FVec Ideal S2048x256 .f32) (b : FVec Ideal S1x256 .f32) :
    k0_pay6 x0 x1 w wh b = gateVec x0 x1 w wh b := rfl

/-- The value stored to the second result's slab, as vector operations over the gates' trees. -/
theorem pay1_eq (x0 x1 : FVec Ideal S512x2048 .f32) (zf zi : FVec Ideal S512x256 .f32) (wxg whg : FVec Ideal S2048x256 .f32)
    (bg : FVec Ideal S1x256 .f32) (ct : FVec Ideal S512x256 .f32) :
    k0_pay1 (k0_pay3 x0) (k0_pay4 x1) zf zi wxg whg bg ct
      = addf (mulf (logistic zf) ct) (mulf (logistic zi) (tanh (gateVec x0 x1 wxg whg bg))) := rfl

/-- The value stored to the first result's slab, likewise. -/
theorem pay2_eq (x0 x1 : FVec Ideal S512x2048 .f32) (zf zi : FVec Ideal S512x256 .f32) (wxo who wxg whg : FVec Ideal S2048x256 .f32)
    (bo bg : FVec Ideal S1x256 .f32) (ct : FVec Ideal S512x256 .f32) :
    k0_pay2 (k0_pay3 x0) (k0_pay4 x1) zf zi (k0_pay7 x0 wxo) (k0_pay8 x1 who) bo wxg whg bg ct
      = mulf (logistic (gateVec x0 x1 wxo who bo)) (tanh (k0_pay1 (k0_pay3 x0) (k0_pay4 x1) zf zi wxg whg bg ct)) := rfl

/-- The second stored value is the step's new cell state. -/
theorem cell_payload (x0 x1 : FVec Ideal S512x2048 .f32) (ct : FVec Ideal S512x256 .f32)
    (wxf wxi wxg whf whi whg : FVec Ideal S2048x256 .f32) (bf bi bg : FVec Ideal S1x256 .f32) :
    k0_pay1 (F := Ideal) (k0_pay3 x0) (k0_pay4 x1) (k0_pay5 x0 x1 wxf whf bf) (k0_pay6 x0 x1 wxi whi bi) wxg whg bg ct
      = tileCell x0 x1 ct wxf wxi wxg whf whi whg bf bi bg := by
  funext y
  obtain ⟨p, q, rfl⟩ : ∃ (p : Fin 512) (q : Fin 256), y = ix2 p q := ⟨y 0, y 1, eq_ix2 y⟩
  rw [pay1_eq, pay5_eq, pay6_eq]
  show FloatOps.addf (FloatOps.mulf (FloatOps.logistic (gateVec x0 x1 wxf whf bf (ix2 p q))) (ct (ix2 p q)))
      (FloatOps.mulf (FloatOps.logistic (gateVec x0 x1 wxi whi bi (ix2 p q))) (FloatOps.tanh (gateVec x0 x1 wxg whg bg (ix2 p q)))) = _
  rw [gateVec_at, gateVec_at, gateVec_at]
  rfl

/-- The first stored value is the step's new hidden state. -/
theorem hidden_payload (x0 x1 : FVec Ideal S512x2048 .f32) (ct : FVec Ideal S512x256 .f32)
    (wxf wxi wxo wxg whf whi who whg : FVec Ideal S2048x256 .f32) (bf bi bo bg : FVec Ideal S1x256 .f32) :
    k0_pay2 (F := Ideal) (k0_pay3 x0) (k0_pay4 x1) (k0_pay5 x0 x1 wxf whf bf) (k0_pay6 x0 x1 wxi whi bi) (k0_pay7 x0 wxo) (k0_pay8 x1 who) bo wxg whg bg ct
      = tileHidden x0 x1 ct wxf wxi wxo wxg whf whi who whg bf bi bo bg := by
  funext y
  obtain ⟨p, q, rfl⟩ : ∃ (p : Fin 512) (q : Fin 256), y = ix2 p q := ⟨y 0, y 1, eq_ix2 y⟩
  rw [pay2_eq, cell_payload]
  show FloatOps.mulf (FloatOps.logistic (gateVec x0 x1 wxo who bo (ix2 p q)))
      (FloatOps.tanh (tileCell x0 x1 ct wxf wxi wxg whf whi whg bf bi bg (ix2 p q))) = _
  rw [gateVec_at]
  rfl

end Cert.TileCell

end
-- ==== Proof.KernelArrays.lean ====
/-
  From grid steps to whole arrays. The grid has 8 × 8 steps; step (a, b) works on rows 512·a … 512·a + 511 of x, h, c and
  of the two results, and on columns 256·b … 256·b + 255 of every weight matrix, bias and result. So each operand slab of a
  step is a restriction of its array (`slab…_row`, `slab…_col`, `slab…_bias`, `slab2_at`), the slab a step writes back is
  the corresponding slab of the cell function of the WHOLE arrays (`written_hidden`, `written_cell`), and the 64 slabs
  tile the [4096, 2048] results (`tiled`): after the run the two result arrays are `hiddenNew` and `cellNew` of the
  arguments (`run`). The biases reach the kernel reshaped from [2048] to [1, 2048]; entry (0, j) of the reshaped array is
  entry j of the bias (`bias_row…`).
-/
import proofs.«117564_j979252543670_1_alg».proof.Proof.Gen.KernelIdeal.Value
import proofs.«117564_j979252543670_1_alg».proof.Proof.TileCell
import Idealize.ShloMosaic.Lib.Pipeline.Value
import Idealize.ShloMosaic.Lib.ValueLayout
import Idealize.ShloMosaic.Lib.StableHlo.Run
import Idealize.ShloMosaic.Lib.Tactic

noncomputable section

namespace Cert.KernelCell

open Cert.KernelIdeal Cert.KernelIdeal.Gen Cert.KernelIdeal.Value Idealize.ShloMosaic Idealize.ShloMosaic.TcCoe Idealize.SL.Sem
open Idealize.ShloMosaic.ValueIdx Cert.Cell
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## Where each window's slab sits at a grid step, relative to the first result's slab -/

/-- The slabs of x and h share the result's row block and span all columns. -/
theorem step_rows : ∀ t : Fin cfg0.N,
    win0_0.index t (0 : Fin 2) = win0_15.index t (0 : Fin 2) ∧ win0_0.index t (1 : Fin 2) = 0
    ∧ win0_1.index t (0 : Fin 2) = win0_15.index t (0 : Fin 2) ∧ win0_1.index t (1 : Fin 2) = 0 :=
  (by decide +kernel : ∀ t : Fin grid0.N, _)

/-- The slabs of c and of the second result are the first result's slab; block indices stay below 8. -/
theorem step_same : ∀ t : Fin cfg0.N,
    win0_2.index t (0 : Fin 2) = win0_15.index t (0 : Fin 2) ∧ win0_2.index t (1 : Fin 2) = win0_15.index t (1 : Fin 2)
    ∧ win0_16.index t (0 : Fin 2) = win0_15.index t (0 : Fin 2) ∧ win0_16.index t (1 : Fin 2) = win0_15.index t (1 : Fin 2)
    ∧ win0_15.index t (0 : Fin 2) ≤ 7 ∧ win0_15.index t (1 : Fin 2) ≤ 7 :=
  (by decide +kernel : ∀ t : Fin grid0.N, _)

/-- The slabs of the four input weight matrices span all rows and share the result's column block. -/
theorem step_cols_x : ∀ t : Fin cfg0.N,
    win0_3.index t (0 : Fin 2) = 0 ∧ win0_3.index t (1 : Fin 2) = win0_15.index t (1 : Fin 2)
    ∧ win0_4.index t (0 : Fin 2) = 0 ∧ win0_4.index t (1 : Fin 2) = win0_15.index t (1 : Fin 2)
    ∧ win0_5.index t (0 : Fin 2) = 0 ∧ win0_5.index t (1 : Fin 2) = win0_15.index t (1 : Fin 2)
    ∧ win0_6.index t (0 : Fin 2) = 0 ∧ win0_6.index t (1 : Fin 2) = win0_15.index t (1 : Fin 2) :=
  (by decide +kernel : ∀ t : Fin grid0.N, _)

/-- Likewise the four hidden weight matrices. -/
theorem step_cols_h : ∀ t : Fin cfg0.N,
    win0_7.index t (0 : Fin 2) = 0 ∧ win0_7.index t (1 : Fin 2) = win0_15.index t (1 : Fin 2)
    ∧ win0_8.index t (0 : Fin 2) = 0 ∧ win0_8.index t (1 : Fin 2) = win0_15.index t (1 : Fin 2)
    ∧ win0_9.index t (0 : Fin 2) = 0 ∧ win0_9.index t (1 : Fin 2) = win0_15.index t (1 : Fin 2)
    ∧ win0_10.index t (0 : Fin 2) = 0 ∧ win0_10.index t (1 : Fin 2) = win0_15.index t (1 : Fin 2) :=
  (by decide +kernel : ∀ t : Fin grid0.N, _)

/-- Likewise the four bias rows. -/
theorem step_cols_b : ∀ t : Fin cfg0.N,
    win0_11.index t (0 : Fin 2) = 0 ∧ win0_11.index t (1 : Fin 2) = win0_15.index t (1 : Fin 2)
    ∧ win0_12.index t (0 : Fin 2) = 0 ∧ win0_12.index t (1 : Fin 2) = win0_15.index t (1 : Fin 2)
    ∧ win0_13.index t (0 : Fin 2) = 0 ∧ win0_13.index t (1 : Fin 2) = win0_15.index t (1 : Fin 2)
    ∧ win0_14.index t (0 : Fin 2) = 0 ∧ win0_14.index t (1 : Fin 2) = win0_15.index t (1 : Fin 2) :=
  (by decide +kernel : ∀ t : Fin grid0.N, _)

/-- Every pair of a row block and a column block is some step's. -/
theorem step_onto : ∀ (a b : Fin 8), ∃ t : Fin cfg0.N, win0_15.index t = ![a.val, b.val] :=
  (by decide +kernel : ∀ (a b : Fin 8), ∃ t : Fin grid0.N, win0_15.index t = ![a.val, b.val])

/-! ## The biases as the kernel finds them: reshaped to one row -/

theorem bias_row0 (c : Dev nD) : (V m c main_v0 : S1x2048.Idx → EReal)
    = shapeCast S1x2048 (m ((c : Thread nD τ).loc main_arg7)) shapeCasts_S2048_S1x2048 := by
  dsimp only [Gen.V, Gen.hostOps0]; after_results; rfl
theorem bias_row1 (c : Dev nD) : (V m c main_v1 : S1x2048.Idx → EReal)
    = shapeCast S1x2048 (m ((c : Thread nD τ).loc main_arg8)) shapeCasts_S2048_S1x2048 := by
  dsimp only [Gen.V, Gen.hostOps0]; after_results; rfl
theorem bias_row2 (c : Dev nD) : (V m c main_v2 : S1x2048.Idx → EReal)
    = shapeCast S1x2048 (m ((c : Thread nD τ).loc main_arg9)) shapeCasts_S2048_S1x2048 := by
  dsimp only [Gen.V, Gen.hostOps0]; after_results; rfl
theorem bias_row3 (c : Dev nD) : (V m c main_v3 : S1x2048.Idx → EReal)
    = shapeCast S1x2048 (m ((c : Thread nD τ).loc main_arg10)) shapeCasts_S2048_S1x2048 := by
  dsimp only [Gen.V, Gen.hostOps0]; after_results; rfl

/-! ## Each operand slab is a restriction of its array -/

/-- Row `p` of x's slab at step `t` is row `r` of x, `r` being `p` past the step's row offset. -/
theorem slab0_row (c : Dev nD) (t : Fin cfg0.N) (p : Fin 512) (r : Fin 4096)
    (hr : r.val = win0_15.index t (0 : Fin 2) * 512 + p.val) (k : Fin 2048) :
    (iblk m c 0 t : S512x2048.Idx → EReal) (ix2 p k) = (m ((c : Thread nD τ).loc main_arg0) : S4096x2048.Idx → EReal) (ix2 r k) := by
  obtain ⟨e0, e1, -, -⟩ := step_rows t
  unfold iblk
  rw [View.read_apply]
  refine (congrFun (V_main_arg0 m c) _).trans ?_
  congr 1; funext a; apply Fin.ext
  match a with
  | ⟨0, _⟩ => show win0_0.index t (0 : Fin 2) * 512 + 1 * p.val = r.val; omega
  | ⟨1, _⟩ => show win0_0.index t (1 : Fin 2) * 2048 + 1 * k.val = k.val; omega

/-- The same for h's slab. -/
theorem slab1_row (c : Dev nD) (t : Fin cfg0.N) (p : Fin 512) (r : Fin 4096)
    (hr : r.val = win0_15.index t (0 : Fin 2) * 512 + p.val) (k : Fin 2048) :
    (iblk m c 1 t : S512x2048.Idx → EReal) (ix2 p k) = (m ((c : Thread nD τ).loc main_arg1) : S4096x2048.Idx → EReal) (ix2 r k) := by
  obtain ⟨-, -, e0, e1⟩ := step_rows t
  unfold iblk
  rw [View.read_apply]
  refine (congrFun (V_main_arg1 m c) _).trans ?_
  congr 1; funext a; apply Fin.ext
  match a with
  | ⟨0, _⟩ => show win0_1.index t (0 : Fin 2) * 512 + 1 * p.val = r.val; omega
  | ⟨1, _⟩ => show win0_1.index t (1 : Fin 2) * 2048 + 1 * k.val = k.val; omega

/-- Entry (p, q) of c's slab at step `t` is c at the index `i` that lies (p, q) past the step's offsets. -/
theorem slab2_at (c : Dev nD) (t : Fin cfg0.N) (p : Fin 512) (q : Fin 256) (i : S4096x2048.Idx)
    (h0 : (i 0).val = win0_15.index t (0 : Fin 2) * 512 + p.val) (h1 : (i 1).val = win0_15.index t (1 : Fin 2) * 256 + q.val) :
    (iblk m c 2 t : S512x256.Idx → EReal) (ix2 p q) = (m ((c : Thread nD τ).loc main_arg2) : S4096x2048.Idx → EReal) i := by
  obtain ⟨e0, e1, -⟩ := step_same t
  unfold iblk
  rw [View.read_apply]
  refine (congrFun (V_main_arg2 m c) _).trans ?_
  congr 1; funext a; apply Fin.ext
  match a with
  | ⟨0, _⟩ => show win0_2.index t (0 : Fin 2) * 512 + 1 * p.val = (i 0).val; omega
  | ⟨1, _⟩ => show win0_2.index t (1 : Fin 2) * 256 + 1 * q.val = (i 1).val; omega

/-- Column `q` of the forget gate's input-weight slab is column `j` of the matrix, `j` being `q` past the step's column offset. -/
theorem slab3_col (c : Dev nD) (t : Fin cfg0.N) (q : Fin 256) (j : Fin 2048)
    (hj : j.val = win0_15.index t (1 : Fin 2) * 256 + q.val) (k : Fin 2048) :
    (iblk m c 3 t : S2048x256.Idx → EReal) (ix2 k q) = (m ((c : Thread nD τ).loc main_arg3) : S2048x2048.Idx → EReal) (ix2 k j) := by
  obtain ⟨e0, e1, -⟩ := step_cols_x t
  unfold iblk
  rw [View.read_apply]
  refine (congrFun (V_main_arg3 m c) _).trans ?_
  congr 1; funext a; apply Fin.ext
  match a with
  | ⟨0, _⟩ => show win0_3.index t (0 : Fin 2) * 2048 + 1 * k.val = k.val; omega
  | ⟨1, _⟩ => show win0_3.index t (1 : Fin 2) * 256 + 1 * q.val = j.val; omega

/-- The input gate's input weights. -/
theorem slab4_col (c : Dev nD) (t : Fin cfg0.N) (q : Fin 256) (j : Fin 2048)
    (hj : j.val = win0_15.index t (1 : Fin 2) * 256 + q.val) (k : Fin 2048) :
    (iblk m c 4 t : S2048x256.Idx → EReal) (ix2 k q) = (m ((c : Thread nD τ).loc main_arg4) : S2048x2048.Idx → EReal) (ix2 k j) := by
  obtain ⟨-, -, e0, e1, -⟩ := step_cols_x t
  unfold iblk
  rw [View.read_apply]
  refine (congrFun (V_main_arg4 m c) _).trans ?_
  congr 1; funext a; apply Fin.ext
  match a with
  | ⟨0, _⟩ => show win0_4.index t (0 : Fin 2) * 2048 + 1 * k.val = k.val; omega
  | ⟨1, _⟩ => show win0_4.index t (1 : Fin 2) * 256 + 1 * q.val = j.val; omega

/-- The output gate's input weights. -/
theorem slab5_col (c : Dev nD) (t : Fin cfg0.N) (q : Fin 256) (j : Fin 2048)
    (hj : j.val = win0_15.index t (1 : Fin 2) * 256 + q.val) (k : Fin 2048) :
    (iblk m c 5 t : S2048x256.Idx → EReal) (ix2 k q) = (m ((c : Thread nD τ).loc main_arg5) : S2048x2048.Idx → EReal) (ix2 k j) := by
  obtain ⟨-, -, -, -, e0, e1, -⟩ := step_cols_x t
  unfold iblk
  rw [View.read_apply]
  refine (congrFun (V_main_arg5 m c) _).trans ?_
  congr 1; funext a; apply Fin.ext
  match a with
  | ⟨0, _⟩ => show win0_5.index t (0 : Fin 2) * 2048 + 1 * k.val = k.val; omega
  | ⟨1, _⟩ => show win0_5.index t (1 : Fin 2) * 256 + 1 * q.val = j.val; omega

/-- The candidate's input weights. -/
theorem slab6_col (c : Dev nD) (t : Fin cfg0.N) (q : Fin 256) (j : Fin 2048)
    (hj : j.val = win0_15.index t (1 : Fin 2) * 256 + q.val) (k : Fin 2048) :
    (iblk m c 6 t : S2048x256.Idx → EReal) (ix2 k q) = (m ((c : Thread nD τ).loc main_arg6) : S2048x2048.Idx → EReal) (ix2 k j) := by
  obtain ⟨-, -, -, -, -, -, e0, e1⟩ := step_cols_x t
  unfold iblk
  rw [View.read_apply]
  refine (congrFun (V_main_arg6 m c) _).trans ?_
  congr 1; funext a; apply Fin.ext
  match a with
  | ⟨0, _⟩ => show win0_6.index t (0 : Fin 2) * 2048 + 1 * k.val = k.val; omega
  | ⟨1, _⟩ => show win0_6.index t (1 : Fin 2) * 256 + 1 * q.val = j.val; omega

/-- The forget gate's hidden weights. -/
theorem slab7_col (c : Dev nD) (t : Fin cfg0.N) (q : Fin 256) (j : Fin 2048)
    (hj : j.val = win0_15.index t (1 : Fin 2) * 256 + q.val) (k : Fin 2048) :
    (iblk m c 7 t : S2048x256.Idx → EReal) (ix2 k q) = (m ((c : Thread nD τ).loc main_arg11) : S2048x2048.Idx → EReal) (ix2 k j) := by
  obtain ⟨e0, e1, -⟩ := step_cols_h t
  unfold iblk
  rw [View.read_apply]
  refine (congrFun (V_main_arg11 m c) _).trans ?_
  congr 1; funext a; apply Fin.ext
  match a with
  | ⟨0, _⟩ => show win0_7.index t (0 : Fin 2) * 2048 + 1 * k.val = k.val; omega
  | ⟨1, _⟩ => show win0_7.index t (1 : Fin 2) * 256 + 1 * q.val = j.val; omega

/-- The input gate's hidden weights. -/
theorem slab8_col (c : Dev nD) (t : Fin cfg0.N) (q : Fin 256) (j : Fin 2048)
    (hj : j.val = win0_15.index t (1 : Fin 2) * 256 + q.val) (k : Fin 2048) :
    (iblk m c 8 t : S2048x256.Idx → EReal) (ix2 k q) = (m ((c : Thread nD τ).loc main_arg12) : S2048x2048.Idx → EReal) (ix2 k j) := by
  obtain ⟨-, -, e0, e1, -⟩ := step_cols_h t
  unfold iblk
  rw [View.read_apply]
  refine (congrFun (V_main_arg12 m c) _).trans ?_
  congr 1; funext a; apply Fin.ext
  match a with
  | ⟨0, _⟩ => show win0_8.index t (0 : Fin 2) * 2048 + 1 * k.val = k.val; omega
  | ⟨1, _⟩ => show win0_8.index t (1 : Fin 2) * 256 + 1 * q.val = j.val; omega

/-- The output gate's hidden weights. -/
theorem slab9_col (c : Dev nD) (t : Fin cfg0.N) (q : Fin 256) (j : Fin 2048)
    (hj : j.val = win0_15.index t (1 : Fin 2) * 256 + q.val) (k : Fin 2048) :
    (iblk m c 9 t : S2048x256.Idx → EReal) (ix2 k q) = (m ((c : Thread nD τ).loc main_arg13) : S2048x2048.Idx → EReal) (ix2 k j) := by
  obtain ⟨-, -, -, -, e0, e1, -⟩ := step_cols_h t
  unfold iblk
  rw [View.read_apply]
  refine (congrFun (V_main_arg13 m c) _).trans ?_
  congr 1; funext a; apply Fin.ext
  match a with
  | ⟨0, _⟩ => show win0_9.index t (0 : Fin 2) * 2048 + 1 * k.val = k.val; omega
  | ⟨1, _⟩ => show win0_9.index t (1 : Fin 2) * 256 + 1 * q.val = j.val; omega

/-- The candidate's hidden weights. -/
theorem slab10_col (c : Dev nD) (t : Fin cfg0.N) (q : Fin 256) (j : Fin 2048)
    (hj : j.val = win0_15.index t (1 : Fin 2) * 256 + q.val) (k : Fin 2048) :
    (iblk m c 10 t : S2048x256.Idx → EReal) (ix2 k q) = (m ((c : Thread nD τ).loc main_arg14) : S2048x2048.Idx → EReal) (ix2 k j) := by
  obtain ⟨-, -, -, -, -, -, e0, e1⟩ := step_cols_h t
  unfold iblk
  rw [View.read_apply]
  refine (congrFun (V_main_arg14 m c) _).trans ?_
  congr 1; funext a; apply Fin.ext
  match a with
  | ⟨0, _⟩ => show win0_10.index t (0 : Fin 2) * 2048 + 1 * k.val = k.val; omega
  | ⟨1, _⟩ => show win0_10.index t (1 : Fin 2) * 256 + 1 * q.val = j.val; omega

/-- Entry `q` of the forget gate's bias slab is entry `j` of the bias. -/
theorem slab11_bias (c : Dev nD) (t : Fin cfg0.N) (q : Fin 256) (j : Fin 2048)
    (hj : j.val = win0_15.index t (1 : Fin 2) * 256 + q.val) :
    (iblk m c 11 t : S1x256.Idx → EReal) (ix2 (0 : Fin 1) q) = (m ((c : Thread nD τ).loc main_arg7) : S2048.Idx → EReal) (ix1 j) := by
  obtain ⟨e0, e1, -⟩ := step_cols_b t
  unfold iblk
  rw [View.read_apply]
  refine (congrFun (bias_row0 m c) _).trans ?_
  refine (congrArg _ ?_).trans (shapeCast_a_1a_apply (m ((c : Thread nD τ).loc main_arg7)) shapeCasts_S2048_S1x2048 (0 : Fin 1) j)
  funext a; apply Fin.ext
  match a with
  | ⟨0, _⟩ => show win0_11.index t (0 : Fin 2) * 1 + 1 * 0 = 0; omega
  | ⟨1, _⟩ => show win0_11.index t (1 : Fin 2) * 256 + 1 * q.val = j.val; omega

/-- The input gate's bias. -/
theorem slab12_bias (c : Dev nD) (t : Fin cfg0.N) (q : Fin 256) (j : Fin 2048)
    (hj : j.val = win0_15.index t (1 : Fin 2) * 256 + q.val) :
    (iblk m c 12 t : S1x256.Idx → EReal) (ix2 (0 : Fin 1) q) = (m ((c : Thread nD τ).loc main_arg8) : S2048.Idx → EReal) (ix1 j) := by
  obtain ⟨-, -, e0, e1, -⟩ := step_cols_b t
  unfold iblk
  rw [View.read_apply]
  refine (congrFun (bias_row1 m c) _).trans ?_
  refine (congrArg _ ?_).trans (shapeCast_a_1a_apply (m ((c : Thread nD τ).loc main_arg8)) shapeCasts_S2048_S1x2048 (0 : Fin 1) j)
  funext a; apply Fin.ext
  match a with
  | ⟨0, _⟩ => show win0_12.index t (0 : Fin 2) * 1 + 1 * 0 = 0; omega
  | ⟨1, _⟩ => show win0_12.index t (1 : Fin 2) * 256 + 1 * q.val = j.val; omega

/-- The output gate's bias. -/
theorem slab13_bias (c : Dev nD) (t : Fin cfg0.N) (q : Fin 256) (j : Fin 2048)
    (hj : j.val = win0_15.index t (1 : Fin 2) * 256 + q.val) :
    (iblk m c 13 t : S1x256.Idx → EReal) (ix2 (0 : Fin 1) q) = (m ((c : Thread nD τ).loc main_arg9) : S2048.Idx → EReal) (ix1 j) := by
  obtain ⟨-, -, -, -, e0, e1, -⟩ := step_cols_b t
  unfold iblk
  rw [View.read_apply]
  refine (congrFun (bias_row2 m c) _).trans ?_
  refine (congrArg _ ?_).trans (shapeCast_a_1a_apply (m ((c : Thread nD τ).loc main_arg9)) shapeCasts_S2048_S1x2048 (0 : Fin 1) j)
  funext a; apply Fin.ext
  match a with
  | ⟨0, _⟩ => show win0_13.index t (0 : Fin 2) * 1 + 1 * 0 = 0; omega
  | ⟨1, _⟩ => show win0_13.index t (1 : Fin 2) * 256 + 1 * q.val = j.val; omega

/-- The candidate's bias. -/
theorem slab14_bias (c : Dev nD) (t : Fin cfg0.N) (q : Fin 256) (j : Fin 2048)
    (hj : j.val = win0_15.index t (1 : Fin 2) * 256 + q.val) :
    (iblk m c 14 t : S1x256.Idx → EReal) (ix2 (0 : Fin 1) q) = (m ((c : Thread nD τ).loc main_arg10) : S2048.Idx → EReal) (ix1 j) := by
  obtain ⟨-, -, -, -, -, -, e0, e1⟩ := step_cols_b t
  unfold iblk
  rw [View.read_apply]
  refine (congrFun (bias_row3 m c) _).trans ?_
  refine (congrArg _ ?_).trans (shapeCast_a_1a_apply (m ((c : Thread nD τ).loc main_arg10)) shapeCasts_S2048_S1x2048 (0 : Fin 1) j)
  funext a; apply Fin.ext
  match a with
  | ⟨0, _⟩ => show win0_14.index t (0 : Fin 2) * 1 + 1 * 0 = 0; omega
  | ⟨1, _⟩ => show win0_14.index t (1 : Fin 2) * 256 + 1 * q.val = j.val; omega

/-! ## What a step writes back -/

/-- The second result as a function of the arguments: the new cell state. -/
def cellArr (c : Dev nD) : S4096x2048.Idx → EReal :=
  cellNew (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg6))
    (m ((c : Thread nD τ).loc main_arg11)) (m ((c : Thread nD τ).loc main_arg12)) (m ((c : Thread nD τ).loc main_arg14))
    (m ((c : Thread nD τ).loc main_arg7)) (m ((c : Thread nD τ).loc main_arg8)) (m ((c : Thread nD τ).loc main_arg10))

/-- The first result as a function of the arguments: the new hidden state. -/
def hiddenArr (c : Dev nD) : S4096x2048.Idx → EReal :=
  hiddenNew (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg11)) (m ((c : Thread nD τ).loc main_arg12)) (m ((c : Thread nD τ).loc main_arg13)) (m ((c : Thread nD τ).loc main_arg14))
    (m ((c : Thread nD τ).loc main_arg7)) (m ((c : Thread nD τ).loc main_arg8)) (m ((c : Thread nD τ).loc main_arg9)) (m ((c : Thread nD τ).loc main_arg10))

/-- Step `t` writes back, to the second result, the step's slab of the new cell state of the whole arrays. -/
theorem written_cell (c : Dev nD) (t : Fin cfg0.N) :
    (dats m 0 c).flushed 16 t = ((cfg0.win 16).blk t).view.read (Elt Ideal) (cellArr m c) := by
  rw [flushed16]
  unfold out0_16
  rw [View.canon_unit_zero zero_offsets]
  simp only [View.ld_unit_zero (S := S512x2048) zero_offsets, View.ld_unit_zero (S := S2048x256) zero_offsets,
    View.ld_unit_zero (S := S1x256) zero_offsets, View.ld_unit_zero (S := S512x256) zero_offsets]
  rw [TileCell.cell_payload]
  obtain ⟨-, -, s0, s1, -, -⟩ := step_same t
  funext y
  show tileCell (iblk m c 0 t) (iblk m c 1 t) (iblk m c 2 t) (iblk m c 3 t) (iblk m c 4 t) (iblk m c 6 t) (iblk m c 7 t)
      (iblk m c 8 t) (iblk m c 10 t) (iblk m c 11 t) (iblk m c 12 t) (iblk m c 14 t) y
    = cellArr m c (((cfg0.win 16).blk t).view.emb y)
  have h0 : ((((cfg0.win 16).blk t).view.emb y) 0).val = win0_15.index t (0 : Fin 2) * 512 + (y 0).val := by
    show win0_16.index t (0 : Fin 2) * 512 + 1 * (y 0).val = _; omega
  have h1 : ((((cfg0.win 16).blk t).view.emb y) 1).val = win0_15.index t (1 : Fin 2) * 256 + (y 1).val := by
    show win0_16.index t (1 : Fin 2) * 256 + 1 * (y 1).val = _; omega
  exact tileCell_eq_cellNew _ _ _ _ _ _ _ _ _ _ _ _ _ _ _ _ _ _ _ _ _ _ _ _ (((cfg0.win 16).blk t).view.emb y) y
    (fun k => slab0_row m c t (y 0) _ h0 k) (fun k => slab1_row m c t (y 0) _ h0 k)
    ((congrArg _ (eq_ix2 y)).trans (slab2_at m c t (y 0) (y 1) _ h0 h1))
    (fun k => slab3_col m c t (y 1) _ h1 k) (fun k => slab4_col m c t (y 1) _ h1 k) (fun k => slab6_col m c t (y 1) _ h1 k)
    (fun k => slab7_col m c t (y 1) _ h1 k) (fun k => slab8_col m c t (y 1) _ h1 k) (fun k => slab10_col m c t (y 1) _ h1 k)
    (slab11_bias m c t (y 1) _ h1) (slab12_bias m c t (y 1) _ h1) (slab14_bias m c t (y 1) _ h1)

/-- Step `t` writes back, to the first result, the step's slab of the new hidden state of the whole arrays. -/
theorem written_hidden (c : Dev nD) (t : Fin cfg0.N) :
    (dats m 0 c).flushed 15 t = ((cfg0.win 15).blk t).view.read (Elt Ideal) (hiddenArr m c) := by
  rw [flushed15]
  unfold out0_15
  rw [View.canon_unit_zero zero_offsets]
  simp only [View.ld_unit_zero (S := S512x2048) zero_offsets, View.ld_unit_zero (S := S2048x256) zero_offsets,
    View.ld_unit_zero (S := S1x256) zero_offsets, View.ld_unit_zero (S := S512x256) zero_offsets]
  rw [TileCell.hidden_payload]
  funext y
  show tileHidden (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) y
    = hiddenArr m c (((cfg0.win 15).blk t).view.emb y)
  have h0 : ((((cfg0.win 15).blk t).view.emb y) 0).val = win0_15.index t (0 : Fin 2) * 512 + (y 0).val := by
    show win0_15.index t (0 : Fin 2) * 512 + 1 * (y 0).val = _; omega
  have h1 : ((((cfg0.win 15).blk t).view.emb y) 1).val = win0_15.index t (1 : Fin 2) * 256 + (y 1).val := by
    show win0_15.index t (1 : Fin 2) * 256 + 1 * (y 1).val = _; omega
  exact tileHidden_eq_hiddenNew _ _ _ _ _ _ _ _ _ _ _ _ _ _ _ _ _ _ _ _ _ _ _ _ _ _ _ _ _ _ (((cfg0.win 15).blk t).view.emb y) y
    (fun k => slab0_row m c t (y 0) _ h0 k) (fun k => slab1_row m c t (y 0) _ h0 k)
    ((congrArg _ (eq_ix2 y)).trans (slab2_at m c t (y 0) (y 1) _ h0 h1))
    (fun k => slab3_col m c t (y 1) _ h1 k) (fun k => slab4_col m c t (y 1) _ h1 k) (fun k => slab5_col m c t (y 1) _ h1 k)
    (fun k => slab6_col m c t (y 1) _ h1 k)
    (fun k => slab7_col m c t (y 1) _ h1 k) (fun k => slab8_col m c t (y 1) _ h1 k) (fun k => slab9_col m c t (y 1) _ h1 k)
    (fun k => slab10_col m c t (y 1) _ h1 k)
    (slab11_bias m c t (y 1) _ h1) (slab12_bias m c t (y 1) _ h1) (slab13_bias m c t (y 1) _ h1) (slab14_bias m c t (y 1) _ h1)

/-! ## The 64 slabs tile each result -/

/-- An index is in step `t`'s slab of the first result iff each coordinate lies in the slab's range. -/
theorem in_slab15 (t : Fin cfg0.N) (i : S4096x2048.Idx) :
    i ∈ ((cfg0.win 15).blk t).view.set ↔ ∀ a : Fin 2, win0_15.index t a * S512x256.size a ≤ (i a).val
      ∧ (i a).val < win0_15.index t a * S512x256.size a + S512x256.size a := by
  show i ∈ ((View.whole main_v4_0).slice (win0_15.rect t)).set ↔ _
  rw [View.set_slice_whole, Rect.mem_set_unit]
  exact Iff.rfl

/-- The same for the second result. -/
theorem in_slab16 (t : Fin cfg0.N) (i : S4096x2048.Idx) :
    i ∈ ((cfg0.win 16).blk t).view.set ↔ ∀ a : Fin 2, win0_16.index t a * S512x256.size a ≤ (i a).val
      ∧ (i a).val < win0_16.index t a * S512x256.size a + S512x256.size a := by
  show i ∈ ((View.whole main_v4_1).slice (win0_16.rect t)).set ↔ _
  rw [View.set_slice_whole, Rect.mem_set_unit]
  exact Iff.rfl

/-- Every index of the first result lies in the slab of the step whose row block is its row over 512 and whose column
    block is its column over 256. -/
theorem tiled15 (i : S4096x2048.Idx) :
    ∃ t : Fin cfg0.N, (cfg0.win 15).flush t = true ∧ i ∈ ((cfg0.win 15).blk t).view.set := by
  have hi0 : (i 0).val < 4096 := (i 0).isLt
  have hi1 : (i 1).val < 2048 := (i 1).isLt
  obtain ⟨t, ht⟩ := step_onto ⟨(i 0).val / 512, by omega⟩ ⟨(i 1).val / 256, by omega⟩
  have q0 : win0_15.index t (0 : Fin 2) = (i 0).val / 512 := congrFun ht 0
  have q1 : win0_15.index t (1 : Fin 2) = (i 1).val / 256 := congrFun ht 1
  refine ⟨t, flush0_15 t, ?_⟩
  rw [in_slab15]
  intro a
  match a with
  | ⟨0, _⟩ => show win0_15.index t (0 : Fin 2) * 512 ≤ (i 0).val ∧ (i 0).val < win0_15.index t (0 : Fin 2) * 512 + 512; omega
  | ⟨1, _⟩ => show win0_15.index t (1 : Fin 2) * 256 ≤ (i 1).val ∧ (i 1).val < win0_15.index t (1 : Fin 2) * 256 + 256; omega

/-- Likewise the second result. -/
theorem tiled16 (i : S4096x2048.Idx) :
    ∃ t : Fin cfg0.N, (cfg0.win 16).flush t = true ∧ i ∈ ((cfg0.win 16).blk t).view.set := by
  have hi0 : (i 0).val < 4096 := (i 0).isLt
  have hi1 : (i 1).val < 2048 := (i 1).isLt
  obtain ⟨t, ht⟩ := step_onto ⟨(i 0).val / 512, by omega⟩ ⟨(i 1).val / 256, by omega⟩
  have q0 : win0_15.index t (0 : Fin 2) = (i 0).val / 512 := congrFun ht 0
  have q1 : win0_15.index t (1 : Fin 2) = (i 1).val / 256 := congrFun ht 1
  obtain ⟨-, -, s0, s1, -, -⟩ := step_same t
  refine ⟨t, flush0_16 t, ?_⟩
  rw [in_slab16]
  intro a
  match a with
  | ⟨0, _⟩ => show win0_16.index t (0 : Fin 2) * 512 ≤ (i 0).val ∧ (i 0).val < win0_16.index t (0 : Fin 2) * 512 + 512; omega
  | ⟨1, _⟩ => show win0_16.index t (1 : Fin 2) * 256 ≤ (i 1).val ∧ (i 1).val < win0_16.index t (1 : Fin 2) * 256 + 256; omega

/-! ## The results after the run -/

theorem final_hidden (c : Dev nD) : (dats m 0 c).arrAt 15 cfg0.N = hiddenArr m c :=
  (dats m 0 c).arrAt_eq_of_cover 15 (hiddenArr m c) (fun t _ => written_hidden m c t) tiled15

theorem final_cell (c : Dev nD) : (dats m 0 c).arrAt 16 cfg0.N = cellArr m c :=
  (dats m 0 c).arrAt_eq_of_cover 16 (cellArr m c) (fun t _ => written_cell m c t) tiled16

/-- The kernel's run, read: the first result ends at the new hidden state and the second at the new cell state of the
    arguments, the arguments unchanged. -/
theorem run : θ_run defs (onTc (τ := τ) (main (F := Ideal))) ⟨m, fun _ => 0, ρ⟩ fun r => ∀ c : Dev nD,
      r.2.mem ((c : Thread nD τ).loc main_v4_0) = hiddenArr m c
      ∧ r.2.mem ((c : Thread nD τ).loc main_v4_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => ⟨(h c).1.trans (final_hidden m c), (h c).2.1.trans (final_cell m c), (h c).2.2⟩)
    (run_blocks m ρ)

end Cert.KernelCell

end
-- ==== Proof.lean ====
/-
  A fused long short-term memory cell against its jnp reference, over the extended reals.

  The kernel runs an 8 × 8 grid; a step takes a 512-row slab of x, h and c, a 256-column slab of each of the eight weight
  matrices and of the four biases, forms each gate's pre-activation x·Wx + h·Wh + b with two products into zero
  accumulators, applies the logistic function to three gates and tanh to the fourth, and writes the slabs
      c' = σ(z_f) · c + σ(z_i) · tanh(z_g),      h' = σ(z_o) · tanh(c').
  The reference joins the weight matrices side by side and the biases end to end, takes one product per operand over the
  joined matrices, and cuts the result into the four gates; its logistic is spelt 1 / (1 + exp(-z)).

  Both are the one function of `Proof/CellSpec.lean`, index by index: the contraction runs over the axis the joining and
  the slabs leave whole, a product into a zero accumulator is the plain sum, the bf16 narrowing of the operands is the
  identity on the extended reals, and the spelt-out logistic is the logistic function. No law of arithmetic beyond that is
  used: the sums are the same sums in the same order, so the finiteness of the inputs is not needed.

    Proof/CellSpec.lean      the cell as a function of the arrays, and of one step's slabs
    Proof/RefCell.lean       the reference's two results are that function
    Proof/TileCell.lean      a step's two stored values are that function of the step's slabs
    Proof/KernelArrays.lean  the slabs are restrictions of the arrays, the written slabs tile the results: the kernel's run

  The frames of the two kernel programs are the generated ones; the reference's is its run with the results dropped; the
  idealization rewrote nothing, so `preserves` has nothing to say.
-/
import proofs.«117564_j979252543670_1_alg».proof.Defs
import proofs.«117564_j979252543670_1_alg».proof.Proof.Gen.Kernel
import proofs.«117564_j979252543670_1_alg».proof.Proof.Gen.Kernel.Skeleton
import proofs.«117564_j979252543670_1_alg».proof.Proof.Gen.Kernel.Launch
import proofs.«117564_j979252543670_1_alg».proof.Proof.Gen.Kernel.Points
import proofs.«117564_j979252543670_1_alg».proof.Proof.Gen.Kernel.Frame
import proofs.«117564_j979252543670_1_alg».proof.Proof.Gen.KernelIdeal
import proofs.«117564_j979252543670_1_alg».proof.Proof.Gen.KernelIdeal.Skeleton
import proofs.«117564_j979252543670_1_alg».proof.Proof.Gen.KernelIdeal.Launch
import proofs.«117564_j979252543670_1_alg».proof.Proof.Gen.KernelIdeal.Points
import proofs.«117564_j979252543670_1_alg».proof.Proof.Gen.KernelIdeal.Frame
import proofs.«117564_j979252543670_1_alg».proof.Proof.Gen.ReferenceIdeal
import proofs.«117564_j979252543670_1_alg».proof.Proof.Gen.Pre_finite_inputs
import proofs.«117564_j979252543670_1_alg».proof.Proof.Gen.KernelIdeal.Value
import proofs.«117564_j979252543670_1_alg».proof.Proof.Gen.ReferenceIdeal.Run
import proofs.«117564_j979252543670_1_alg».proof.Proof.Gen.ReferenceIdeal.Read
import proofs.«117564_j979252543670_1_alg».proof.Proof.RefCell
import proofs.«117564_j979252543670_1_alg».proof.Proof.KernelArrays
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's run ends with the arguments unchanged: its generated run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the fifteen arguments, the kernel's two result arrays end at the new hidden state and the
    new cell state of its arguments (`KernelCell.run`), the reference's at the same two functions of its own
    (`RefCell.hidden_eq`, `RefCell.cell_eq`): equal once the arguments' agreement is rewritten. -/
theorem algebraic : Cert.algebraic_KernelIdeal_ReferenceIdeal := by
  intro m ρ m' ρ' _ hagree
  refine ⟨fun c => Cert.KernelCell.hiddenArr m c, fun c => Cert.KernelCell.cellArr m c, Cert.KernelCell.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v36_eq, Cert.RefCell.hidden_eq]
    unfold Cert.KernelCell.hiddenArr
    rw [a0, a1, a2, a3, a4, a5, a6, a7, a8, a9, a10, a11, a12, a13, a14]
  · obtain ⟨a0, a1, a2, a3, a4, a5, a6, a7, a8, a9, a10, a11, a12, a13, a14⟩ := hagree c
    rw [Cert.ReferenceIdeal.Read.val_main_v34_eq, Cert.RefCell.cell_eq]
    unfold Cert.KernelCell.cellArr
    rw [a0, a1, a2, a3, a4, a6, a7, a8, a10, a11, a12, a14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
